-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 74
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S128x256, .bf16⟩
  | .hbm, ⟨29, _⟩ => ⟨S1x256, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S256x256, .bf16⟩
  | .hbm, ⟨45, _⟩ => ⟨S1x256, .f32⟩
  | .hbm, ⟨46, _⟩ => ⟨S50000x256, .f32⟩
  | .hbm, ⟨47, _⟩ => ⟨S_, .f32⟩
  | .hbm, ⟨48, _⟩ => ⟨S512x256, .f32⟩
  | .hbm, ⟨49, _⟩ => ⟨S50000x1, .i32⟩
  | .hbm, ⟨50, _⟩ => ⟨S512x256, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S512, .f32⟩
  | .hbm, ⟨55, _⟩ => ⟨S50000x1, .i32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S512x256, .f32⟩
  | .hbm, ⟨62, _⟩ => ⟨S512x256, .f32⟩
  | .hbm, ⟨63, _⟩ => ⟨S512x256, .f32⟩
  | .hbm, ⟨64, _⟩ => ⟨S1x256, .f32⟩
  | .hbm, ⟨65, _⟩ => ⟨S512x256, .f32⟩
  | .hbm, ⟨66, _⟩ => ⟨S512x256, .f32⟩
  | .hbm, ⟨67, _⟩ => ⟨S_, .f32⟩
  | .hbm, ⟨68, _⟩ => ⟨S512x256, .f32⟩
  | .hbm, ⟨69, _⟩ => ⟨S512x256, .f32⟩
  | .hbm, ⟨70, _⟩ => ⟨S512x128, .f32⟩
  | .hbm, ⟨71, _⟩ => ⟨S1x128, .f32⟩
  | .hbm, ⟨72, _⟩ => ⟨S512x128, .f32⟩
  | .hbm, ⟨73, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .bf16⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x128, .f32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S512x256, .f32⟩
  | .hbm, ⟨59, _⟩ => ⟨S50000x1, .i32⟩
  | .hbm, ⟨60, _⟩ => ⟨S512x256, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S512, .f32⟩
  | .hbm, ⟨65, _⟩ => ⟨S50000x1, .i32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512x1, .f32⟩
  | .hbm, ⟨71, _⟩ => ⟨S512x256, .f32⟩
  | .hbm, ⟨72, _⟩ => ⟨S512x256, .f32⟩
  | .hbm, ⟨73, _⟩ => ⟨S512x256, .f32⟩
  | .hbm, ⟨74, _⟩ => ⟨S1x256, .f32⟩
  | .hbm, ⟨75, _⟩ => ⟨S512x256, .f32⟩
  | .hbm, ⟨76, _⟩ => ⟨S512x256, .f32⟩
  | .hbm, ⟨77, _⟩ => ⟨S_, .f32⟩
  | .hbm, ⟨78, _⟩ => ⟨S512x256, .f32⟩
  | .hbm, ⟨79, _⟩ => ⟨S512x256, .f32⟩
  | .hbm, ⟨80, _⟩ => ⟨S512x128, .f32⟩
  | .hbm, ⟨81, _⟩ => ⟨S1x128, .f32⟩
  | .hbm, ⟨82, _⟩ => ⟨S512x128, .f32⟩
  | .hbm, ⟨83, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Layer.lean ====
/-
  One layer of the graph network, entry by entry.

  With `h` the node features and `agg` the sum of each node's in-neighbours' features, the layer's output at node `p`
  and channel `q` is

      max (∑ k, (h(p,k) + agg(p,k)) · W(k,q) + b(q)) 0

  on the extended reals. The device computes it on a block of rows: the sum `h + agg` narrowed to half width (the
  identity on the extended reals), the matrix unit's product into a zero accumulator, the bias row broadcast down
  the block, the larger of that and zero. The host computes it on the whole array with a `dot_general`, the bias
  broadcast in two steps, and `maximum` against a broadcast zero. Both read, at `(p, q)`, as the one expression
  `layerAt` below of row `p` of `h` and `agg`, column `q` of `W` and entry `q` of `b`: a matrix product at an
  entry is the sum over the contracted axis whatever its operands' sizes, and nothing else in the layer mixes
  entries. No law of arithmetic beyond that is used, so the inputs' finiteness is not needed. The zero the maximum
  is taken against is the same word on both sides and is never evaluated.
-/
import Idealize.ShloMosaic.Lib.ValueIdx
import Idealize.ShloMosaic.Lib.ValueLayout
import Idealize.ShloMosaic.Lib.Pipeline.Value
import Idealize.ShloMosaic.PureOps.Ideal.Laws
import proofs.«136843_j79663053406797_1_alg».proof.Proof.LibPlainDot

noncomputable section

namespace Cert.Gin

open Idealize.ShloMosaic Idealize.ShloMosaic.ValueIdx

/-- The layer's output at one node and one channel, from the node's feature row `h`, its neighbours' summed row
    `agg`, the channel's weight column `w` and the channel's bias `b`. -/
def layerAt {K : ℕ} (h agg w : Fin K → EReal) (b : EReal) : EReal :=
  max (∑ k : Fin K, (h k + agg k) * w k + b) (Ideal.ofBits .f32 0x00000000#32)

variable {M K N : ℕ}

/-- The device's block computation at row `p` of the block and channel `q`. -/
theorem device_layer_apply (d : DotDims ⟨2, ![M, K]⟩ ⟨2, ![K, N]⟩ ⟨2, ![M, N]⟩) (hd : d = DotDims.plain M K N)
    (v0 v1 : FVec Ideal ⟨2, ![M, K]⟩ .f32) (v5 : FVec Ideal ⟨2, ![K, N]⟩ .bf16) (v8 : FVec Ideal ⟨2, ![1, N]⟩ .f32)
    (hlt : FTy.bf16.bits < FTy.f32.bits) (hb : (⟨2, ![1, N]⟩ : Shape).Broadcasts ⟨2, ![M, N]⟩) (p : Fin M) (q : Fin N) :
    maximumf (addf (matmul d none (truncf .bf16 (addf v0 v1) hlt) v5 (constant ⟨2, ![M, N]⟩ .f32 0x00000000#32))
        (broadcastTo ⟨2, ![M, N]⟩ v8 hb)) (broadcast ⟨2, ![M, N]⟩ (Scalar.ofBits .f32 0x00000000#32)) (ix2 p q)
      = layerAt (fun k => v0 (ix2 p k)) (fun k => v1 (ix2 p k)) (fun k => v5 (ix2 k q)) (v8 (ix2 (0 : Fin 1) q)) := by
  show max (matmul d none (truncf .bf16 (addf v0 v1) hlt) v5 (constant ⟨2, ![M, N]⟩ .f32 0x00000000#32) (ix2 p q)
      + broadcastTo ⟨2, ![M, N]⟩ v8 hb (ix2 p q)) _ = _
  rw [PlainDot.matmul_zero_apply d hd, broadcastTo_1b_ab_apply]
  rfl

/-- A bias vector broadcast to one row and then down all rows reads, at `(p, q)`, its entry `q`. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- The host's layer on whole arrays, at node `p` and channel `q`. -/
theorem host_layer_apply (d : DotDims ⟨2, ![M, K]⟩ ⟨2, ![K, N]⟩ ⟨2, ![M, N]⟩) (hd : d = DotDims.plain M K N)
    (x agg : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral d none (addf x agg) W)
        (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32)) (ix2 p q)
      = layerAt (fun k => x (ix2 p k)) (fun k => agg (ix2 p k)) (fun k => W (ix2 k q)) (b (ix1 q)) := by
  show max (Host.dotGeneral d none (addf x agg) W (ix2 p q)
      + broadcastInDim ⟨2, ![M, N]⟩ ![0, 1] h2 (broadcastInDim ⟨2, ![1, N]⟩ ![1] h1 b) (ix2 p q))
      (broadcastInDim ⟨2, ![M, N]⟩ ![] h0 (constant ⟨0, ![]⟩ .f32 0x00000000#32) (ix2 p q)) = _
  rw [PlainDot.dotGeneral_apply d hd, bias_rows_apply,
    broadcastInDim_apply ![] h0 _ (ix2 p q) ix0 (fun a => a.elim0)]
  rfl

end Cert.Gin

end
-- ==== Proof.LayerOne.lean ====
/-
  The first pallas_call: the layer on 128 input channels, block by block, and what its output array ends holding.

  The pipeline walks the node axis in 25 blocks of 2000 rows. At block `t` it stages rows `2000 t … 2000 t + 1999`
  of the feature array and of the neighbour sums, the whole weight matrix and the whole bias row, runs the body, and
  writes the body's 2000 × 256 block back to the same rows of the output array. The body's block is the layer at each
  of its entries (Layer.lean), and an entry `(p, q)` of block `t` reads row `2000 t + p` of the two row-blocked
  operands, column `q` of the weights and entry `q` of the bias — exactly what the layer on the whole arrays reads
  at row `2000 t + p`. The 25 blocks tile the output (row `r` lies in block `r / 2000`), so after the region the
  output array is the layer of the four arrays as the region found them, whatever those hold.
-/
import proofs.«136843_j79663053406797_1_alg».proof.Proof.Gen.KernelIdeal.Frame
import proofs.«136843_j79663053406797_1_alg».proof.Proof.Layer

set_option maxRecDepth 16384

noncomputable section

namespace Cert.Gin.One

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The layer of four whole arrays: features, neighbour sums, weights (already at half width), the bias as one row. -/
def out (A0 A1 : S50000x128.Idx → Elt Ideal .f32) (A2 : S128x256.Idx → Elt Ideal .bf16) (A3 : S1x256.Idx → Elt Ideal .f32) :
    S50000x256.Idx → Elt Ideal .f32 :=
  fun i => layerAt (fun k : Fin 128 => A0 (ix2 (i 0) k)) (fun k : Fin 128 => A1 (ix2 (i 0) k))
    (fun k : Fin 128 => A2 (ix2 k (i 1))) (A3 (ix2 (0 : Fin 1) (i 1)))

/-- The body's stored block, entry by entry, is the layer of the four loaded blocks. -/
theorem pay_apply (x0 x1 : Vec Ideal S2000x128 .f32) (x2 : Vec Ideal S128x256 .bf16) (x3 : Vec Ideal S1x256 .f32)
    (p : Fin 2000) (q : Fin 256) :
    k0_pay1 x0 x1 x2 x3 (ix2 p q)
      = layerAt (fun k => x0 (ix2 p k)) (fun k => x1 (ix2 p k)) (fun k => x2 (ix2 k q)) (x3 (ix2 (0 : Fin 1) q)) := by
  unfold k0_pay1
  simp only [shapeCast_self]
  exact device_layer_apply _ rfl x0 x1 x2 x3 _ _ p q

/-- Row `p` of block `t` is row `2000 t + p` of the array. -/
def row (t : Fin cfg0.N) (p : Fin 2000) : Fin 50000 :=
  ⟨t.val * 2000 + p.val, by have ht : t.val < 25 := N_0 ▸ t.isLt; have := p.isLt; omega⟩

theorem hz : (![0, 0] : Fin 2 → Nat) = fun _ => 0 := funext fun a => by fin_cases a <;> rfl

/-- The printed index maps over the grid: the two row-blocked operands and the output move down the node axis with
    the point, the weights and the bias stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The staged feature block at `(p, k)` is the array at row `2000 t + p`. -/
theorem read0 (c : Dev nD) (t : Fin cfg0.N) (p : Fin 2000) (k : Fin 128) :
    iblk0 V c 0 t (ix2 p k) = V c main_arg0 (ix2 (row t p) k) := by
  show V c main_arg0 (((cfg0.win 0).blk t).view.emb (ix2 p k)) = _
  refine congrArg (V c main_arg0) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

/-- The staged block of neighbour sums at `(p, k)` is the array at row `2000 t + p`. -/
theorem read1 (c : Dev nD) (t : Fin cfg0.N) (p : Fin 2000) (k : Fin 128) :
    iblk0 V c 1 t (ix2 p k) = V c main_v13 (ix2 (row t p) k) := by
  show V c main_v13 (((cfg0.win 1).blk t).view.emb (ix2 p k)) = _
  refine congrArg (V c main_v13) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 128 + 1 * k.val = k.val; omega

/-- The staged weights are the whole weight array. -/
theorem read2 (c : Dev nD) (t : Fin cfg0.N) (k : Fin 128) (q : Fin 256) :
    iblk0 V c 2 t (ix2 k q) = V c main_v14 (ix2 k q) := by
  show V c main_v14 (((cfg0.win 2).blk t).view.emb (ix2 k q)) = _
  refine congrArg (V c main_v14) (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 256 + 1 * q.val = q.val; omega

/-- The staged bias row is the whole bias row. -/
theorem read3 (c : Dev nD) (t : Fin cfg0.N) (q : Fin 256) :
    iblk0 V c 3 t (ix2 (0 : Fin 1) q) = V c main_v15 (ix2 (0 : Fin 1) q) := by
  show V c main_v15 (((cfg0.win 3).blk t).view.emb (ix2 (0 : Fin 1) q)) = _
  refine congrArg (V c main_v15) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 256 + 1 * q.val = q.val; omega

/-- Entry `(p, q)` of the output's block `t` sits at `(2000 t + p, q)` of the output array. -/
theorem emb_out (t : Fin cfg0.N) (p : Fin 2000) (q : Fin 256) :
    ((cfg0.win 4).blk t).view.emb (ix2 p q) = ix2 (row t p) q := by
  funext a
  apply Fin.ext
  obtain ⟨-, -, -, -, -, -, -, -, e0, e1⟩ := idx_facts t
  match a with
  | ⟨0, _⟩ => show win0_4.index t (0 : Fin 2) * 2000 + 1 * p.val = t.val * 2000 + p.val; omega
  | ⟨1, _⟩ => show win0_4.index t (1 : Fin 2) * 256 + 1 * q.val = q.val; omega

/-- What point `t` writes back is block `t` of the layer of the four arrays. -/
theorem flushed_eq (c : Dev nD) (t : Fin cfg0.N) :
    (dat0 V c).flushed 4 t = ((cfg0.win 4).blk t).view.read (Elt Ideal)
      (out (V c main_arg0) (V c main_v13) (V c main_v14) (V c main_v15)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x256) hz, View.ld_unit_zero (S := S1x256) hz, View.ld_unit_zero (S := S2000x256) hz]
  funext j
  obtain ⟨p, q, rfl⟩ : ∃ (p : Fin 2000) (q : Fin 256), j = ix2 p q := ⟨j 0, j 1, eq_ix2 j⟩
  refine (pay_apply (iblk0 V c 0 t) (iblk0 V c 1 t) (iblk0 V c 2 t) (iblk0 V c 3 t) p q).trans ?_
  show _ = out (V c main_arg0) (V c main_v13) (V c main_v14) (V c main_v15) (((cfg0.win 4).blk t).view.emb (ix2 p q))
  rw [emb_out]
  simp only [read0, read1, read2, read3]
  rfl

/-- An index of the output array is in point `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v16).slice (win0_4.rect t)).set ↔ _
  rw [View.set_slice_whole, Rect.mem_set_unit]
  exact Iff.rfl

/-- Every row of the output lies in the block of the point its quotient by 2000 names. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨-, -, -, -, -, -, -, -, e0, e1⟩ := idx_facts t
  have ht : t.val = (i 0).val / 2000 := rfl
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- After the region its output array holds the layer of its four operand arrays as the region found them. -/
theorem arrAt_out (c : Dev nD) :
    (dat0 V c).arrAt 4 cfg0.N = out (V c main_arg0) (V c main_v13) (V c main_v14) (V c main_v15) :=
  (dat0 V c).arrAt_eq_of_cover 4 _ (fun t _ => flushed_eq V c t) cover

end Cert.Gin.One

end
-- ==== Proof.LayerTwo.lean ====
/-
  The second pallas_call: the layer on 256 input channels, block by block, and what its output array ends holding.

  The pipeline walks the node axis in 25 blocks of 2000 rows. At block `t` it stages rows `2000 t … 2000 t + 1999`
  of the feature array and of the neighbour sums, the whole weight matrix and the whole bias row, runs the body, and
  writes the body's 2000 × 256 block back to the same rows of the output array. The body's block is the layer at each
  of its entries (Layer.lean), and an entry `(p, q)` of block `t` reads row `2000 t + p` of the two row-blocked
  operands, column `q` of the weights and entry `q` of the bias — exactly what the layer on the whole arrays reads
  at row `2000 t + p`. The 25 blocks tile the output (row `r` lies in block `r / 2000`), so after the region the
  output array is the layer of the four arrays as the region found them, whatever those hold.
-/
import proofs.«136843_j79663053406797_1_alg».proof.Proof.Gen.KernelIdeal.Frame
import proofs.«136843_j79663053406797_1_alg».proof.Proof.Layer

set_option maxRecDepth 16384

noncomputable section

namespace Cert.Gin.Two

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The layer of four whole arrays: features, neighbour sums, weights (already at half width), the bias as one row. -/
def out (A0 A1 : S50000x256.Idx → Elt Ideal .f32) (A2 : S256x256.Idx → Elt Ideal .bf16) (A3 : S1x256.Idx → Elt Ideal .f32) :
    S50000x256.Idx → Elt Ideal .f32 :=
  fun i => layerAt (fun k : Fin 256 => A0 (ix2 (i 0) k)) (fun k : Fin 256 => A1 (ix2 (i 0) k))
    (fun k : Fin 256 => A2 (ix2 k (i 1))) (A3 (ix2 (0 : Fin 1) (i 1)))

/-- The body's stored block, entry by entry, is the layer of the four loaded blocks. -/
theorem pay_apply (x0 x1 : Vec Ideal S2000x256 .f32) (x2 : Vec Ideal S256x256 .bf16) (x3 : Vec Ideal S1x256 .f32)
    (p : Fin 2000) (q : Fin 256) :
    k1_pay1 x0 x1 x2 x3 (ix2 p q)
      = layerAt (fun k => x0 (ix2 p k)) (fun k => x1 (ix2 p k)) (fun k => x2 (ix2 k q)) (x3 (ix2 (0 : Fin 1) q)) := by
  unfold k1_pay1
  simp only [shapeCast_self]
  exact device_layer_apply _ rfl x0 x1 x2 x3 _ _ p q

/-- Row `p` of block `t` is row `2000 t + p` of the array. -/
def row (t : Fin cfg1.N) (p : Fin 2000) : Fin 50000 :=
  ⟨t.val * 2000 + p.val, by have ht : t.val < 25 := N_1 ▸ t.isLt; have := p.isLt; omega⟩

theorem hz : (![0, 0] : Fin 2 → Nat) = fun _ => 0 := funext fun a => by fin_cases a <;> rfl

/-- The printed index maps over the grid: the two row-blocked operands and the output move down the node axis with
    the point, the weights and the bias stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The staged feature block at `(p, k)` is the array at row `2000 t + p`. -/
theorem read0 (c : Dev nD) (t : Fin cfg1.N) (p : Fin 2000) (k : Fin 256) :
    iblk1 V c 0 t (ix2 p k) = V c main_v16 (ix2 (row t p) k) := by
  show V c main_v16 (((cfg1.win 0).blk t).view.emb (ix2 p k)) = _
  refine congrArg (V c main_v16) (funext fun a => Fin.ext ?_)
  obtain ⟨e0, e1, -⟩ := idx_facts t
  match a with
  | ⟨0, _⟩ => show win1_0.index t (0 : Fin 2) * 2000 + 1 * p.val = t.val * 2000 + p.val; omega
  | ⟨1, _⟩ => show win1_0.index t (1 : Fin 2) * 256 + 1 * k.val = k.val; omega

/-- The staged block of neighbour sums at `(p, k)` is the array at row `2000 t + p`. -/
theorem read1 (c : Dev nD) (t : Fin cfg1.N) (p : Fin 2000) (k : Fin 256) :
    iblk1 V c 1 t (ix2 p k) = V c main_v26 (ix2 (row t p) k) := by
  show V c main_v26 (((cfg1.win 1).blk t).view.emb (ix2 p k)) = _
  refine congrArg (V c main_v26) (funext fun a => Fin.ext ?_)
  obtain ⟨-, -, e0, e1, -⟩ := idx_facts t
  match a with
  | ⟨0, _⟩ => show win1_1.index t (0 : Fin 2) * 2000 + 1 * p.val = t.val * 2000 + p.val; omega
  | ⟨1, _⟩ => show win1_1.index t (1 : Fin 2) * 256 + 1 * k.val = k.val; omega

/-- The staged weights are the whole weight array. -/
theorem read2 (c : Dev nD) (t : Fin cfg1.N) (k : Fin 256) (q : Fin 256) :
    iblk1 V c 2 t (ix2 k q) = V c main_v27 (ix2 k q) := by
  show V c main_v27 (((cfg1.win 2).blk t).view.emb (ix2 k q)) = _
  refine congrArg (V c main_v27) (funext fun a => Fin.ext ?_)
  obtain ⟨-, -, -, -, e0, e1, -⟩ := idx_facts t
  match a with
  | ⟨0, _⟩ => show win1_2.index t (0 : Fin 2) * 256 + 1 * k.val = k.val; omega
  | ⟨1, _⟩ => show win1_2.index t (1 : Fin 2) * 256 + 1 * q.val = q.val; omega

/-- The staged bias row is the whole bias row. -/
theorem read3 (c : Dev nD) (t : Fin cfg1.N) (q : Fin 256) :
    iblk1 V c 3 t (ix2 (0 : Fin 1) q) = V c main_v28 (ix2 (0 : Fin 1) q) := by
  show V c main_v28 (((cfg1.win 3).blk t).view.emb (ix2 (0 : Fin 1) q)) = _
  refine congrArg (V c main_v28) (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 256 + 1 * q.val = q.val; omega

/-- Entry `(p, q)` of the output's block `t` sits at `(2000 t + p, q)` of the output array. -/
theorem emb_out (t : Fin cfg1.N) (p : Fin 2000) (q : Fin 256) :
    ((cfg1.win 4).blk t).view.emb (ix2 p q) = ix2 (row t p) q := by
  funext a
  apply Fin.ext
  obtain ⟨-, -, -, -, -, -, -, -, e0, e1⟩ := idx_facts t
  match a with
  | ⟨0, _⟩ => show win1_4.index t (0 : Fin 2) * 2000 + 1 * p.val = t.val * 2000 + p.val; omega
  | ⟨1, _⟩ => show win1_4.index t (1 : Fin 2) * 256 + 1 * q.val = q.val; omega

/-- What point `t` writes back is block `t` of the layer of the four arrays. -/
theorem flushed_eq (c : Dev nD) (t : Fin cfg1.N) :
    (dat1 V c).flushed 4 t = ((cfg1.win 4).blk t).view.read (Elt Ideal)
      (out (V c main_v16) (V c main_v26) (V c main_v27) (V c main_v28)) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S1x256) hz, View.ld_unit_zero (S := S2000x256) hz]
  funext j
  obtain ⟨p, q, rfl⟩ : ∃ (p : Fin 2000) (q : Fin 256), j = ix2 p q := ⟨j 0, j 1, eq_ix2 j⟩
  refine (pay_apply (iblk1 V c 0 t) (iblk1 V c 1 t) (iblk1 V c 2 t) (iblk1 V c 3 t) p q).trans ?_
  show _ = out (V c main_v16) (V c main_v26) (V c main_v27) (V c main_v28) (((cfg1.win 4).blk t).view.emb (ix2 p q))
  rw [emb_out]
  simp only [read0, read1, read2, read3]
  rfl

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v29).slice (win1_4.rect t)).set ↔ _
  rw [View.set_slice_whole, Rect.mem_set_unit]
  exact Iff.rfl

/-- Every row of the output lies in the block of the point its quotient by 2000 names. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  let t : Fin cfg1.N := ⟨(i 0).val / 2000, by rw [show cfg1.N = 25 from N_1]; omega⟩
  obtain ⟨-, -, -, -, -, -, -, -, e0, e1⟩ := idx_facts t
  have ht : t.val = (i 0).val / 2000 := rfl
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- After the region its output array holds the layer of its four operand arrays as the region found them. -/
theorem arrAt_out (c : Dev nD) :
    (dat1 V c).arrAt 4 cfg1.N = out (V c main_v16) (V c main_v26) (V c main_v27) (V c main_v28) :=
  (dat1 V c).arrAt_eq_of_cover 4 _ (fun t _ => flushed_eq V c t) cover

end Cert.Gin.Two

end
-- ==== Proof.KernelTerm.lean ====
/-
  What the kernel program returns, as one term of its argument arrays.

  The program is three stretches of host operations around two pallas_calls. Before the first call the host gathers
  each edge's source row of `x` and scatter-adds it into the edge's destination row: the neighbour sums. The first
  call's output array is the layer of `x`, those sums, the weights narrowed to half width and the bias reshaped to
  one row (LayerOne.lean), and that is the reference's first hidden array: narrowing is the identity on the extended
  reals, a one-row reshape of the bias reads the bias, and both sides are the layer's one expression at every entry
  (Layer.lean). Between the calls the same gather and scatter-add run on the first hidden array; they are the same
  host operations the reference runs, applied to equal arrays. The second call gives the second hidden array the
  same way, and the operations after it (mean pooling over graphs, the two-layer head) are again the reference's
  own, applied to equal arrays. So the buffer the program returns holds the reference's result term of the same
  arguments. Nowhere is a host operation opened: gathers, scatter-adds and the head are carried whole.
-/
import proofs.«136843_j79663053406797_1_alg».proof.Proof.LayerOne
import proofs.«136843_j79663053406797_1_alg».proof.Proof.LayerTwo
import proofs.«136843_j79663053406797_1_alg».proof.Proof.Gen.ReferenceIdeal.Read

set_option maxRecDepth 16384

noncomputable section

namespace Cert.Gin.Term

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v13 val_main_v14 val_main_v15 val_main_v16 val_main_v17 val_main_v18
  val_main_call0_cst val_main_call0_v0 val_main_v19 val_main_v29 val_main_v30 val_main_v31 val_main_v32 val_main_v33 val_main_v34
  val_main_call1_cst val_main_call1_v0 val_main_v35 val_main_v56)

/-! ## The two layers on whole arrays are the reference's two hidden arrays -/

/-- The first call's layer of `x`, the neighbour sums, the narrowed weights and the one-row bias is the reference's
    first hidden array. -/
theorem one_eq (x0 : S50000x128.Idx → EReal) (x1 : S2x800000.Idx → BitVec 32) (x3 : S128x256.Idx → EReal) (x4 : S256.Idx → EReal) :
    One.out x0 (val_main_v13 (F := Ideal) x0 x1) (truncf (F := Ideal) .bf16 (x3 : FVec Ideal S128x256 .f32) bitsLt_bf16_f32)
        (shapeCast S1x256 x4 shapeCasts_S256_S1x256)
      = val_main_v19 (F := Ideal) x0 x1 x3 x4 := by
  unfold val_main_v19 val_main_v18 val_main_v15 val_main_v14 val_main_v17 val_main_v16 val_main_call0_v0 val_main_call0_cst
  generalize val_main_v13 (F := Ideal) x0 x1 = agg
  funext i
  obtain ⟨p, q, rfl⟩ : ∃ (p : Fin 50000) (q : Fin 256), i = ix2 p q := ⟨i 0, i 1, eq_ix2 i⟩
  refine Eq.trans ?_ (host_layer_apply _ rfl x0 agg x3 x4 _ _ _ p q).symm
  show layerAt (fun k => x0 (ix2 p k)) (fun k => agg (ix2 p k)) (fun k => x3 (ix2 k q))
    (shapeCast S1x256 x4 shapeCasts_S256_S1x256 (ix2 (0 : Fin 1) q)) = _
  rw [shapeCast_a_1a_apply]

/-- The second call's layer of the first hidden array, its neighbour sums, the narrowed weights and the one-row bias
    is the reference's second hidden array. -/
theorem two_eq (x0 : S50000x128.Idx → EReal) (x1 : S2x800000.Idx → BitVec 32) (x3 : S128x256.Idx → EReal) (x4 : S256.Idx → EReal)
    (x5 : S256x256.Idx → EReal) (x6 : S256.Idx → EReal) :
    Two.out (val_main_v19 (F := Ideal) x0 x1 x3 x4) (val_main_v29 (F := Ideal) x0 x1 x3 x4)
        (truncf (F := Ideal) .bf16 (x5 : FVec Ideal S256x256 .f32) bitsLt_bf16_f32)
        (shapeCast S1x256 x6 shapeCasts_S256_S1x256)
      = val_main_v35 (F := Ideal) x0 x1 x3 x4 x5 x6 := by
  unfold val_main_v35 val_main_v34 val_main_v31 val_main_v30 val_main_v33 val_main_v32 val_main_call1_v0 val_main_call1_cst
  generalize val_main_v19 (F := Ideal) x0 x1 x3 x4 = h
  generalize val_main_v29 (F := Ideal) x0 x1 x3 x4 = agg
  funext i
  obtain ⟨p, q, rfl⟩ : ∃ (p : Fin 50000) (q : Fin 256), i = ix2 p q := ⟨i 0, i 1, eq_ix2 i⟩
  refine Eq.trans ?_ (host_layer_apply _ rfl h agg x5 x6 _ _ _ p q).symm
  show layerAt (fun k => h (ix2 p k)) (fun k => agg (ix2 p k)) (fun k => x5 (ix2 k q))
    (shapeCast S1x256 x6 shapeCasts_S256_S1x256 (ix2 (0 : Fin 1) q)) = _
  rw [shapeCast_a_1a_apply]

/-! ## The buffers' contents, boundary by boundary -/

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)

/-! ### At the first call's entry -/

/-- No operation before the first call writes an argument: there it holds its launch contents. -/
theorem w1_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9 ∨ b = main_arg10) :
    W1 m ρ c (Proc.devRef .tc b) = m ((c.tc : Thread nD τ).loc b) := by
  rcases hb with rfl | rfl | rfl | rfl | rfl | rfl | rfl | rfl | rfl | rfl | rfl <;>
  · show StableHlo.after hostOps0 (W0 m ρ c) (Proc.devRef .tc _) = _
    after_results
    try rfl

theorem w1_v1 : W1 m ρ c (Proc.devRef .tc main_v1) = val_main_v1 (F := Ideal) a1 := by
  show StableHlo.after hostOps0 (W0 m ρ c) (Proc.devRef .tc main_v1) = _
  after_results
  try rfl

theorem w1_v3 : W1 m ρ c (Proc.devRef .tc main_v3) = val_main_v3 (F := Ideal) a1 := by
  show StableHlo.after hostOps0 (W0 m ρ c) (Proc.devRef .tc main_v3) = _
  after_results
  try rfl

/-- The neighbour sums of `x`: the host's gather and scatter-add, the reference's own. -/
theorem w1_v13 : W1 m ρ c (Proc.devRef .tc main_v13) = val_main_v13 (F := Ideal) a0 a1 := by
  show StableHlo.after hostOps0 (W0 m ρ c) (Proc.devRef .tc main_v13) = _
  after_results
  try rfl

theorem w1_v14 : W1 m ρ c (Proc.devRef .tc main_v14) = truncf (F := Ideal) .bf16 (a3 : FVec Ideal S128x256 .f32) bitsLt_bf16_f32 := by
  show StableHlo.after hostOps0 (W0 m ρ c) (Proc.devRef .tc main_v14) = _
  after_results
  try rfl

theorem w1_v15 : W1 m ρ c (Proc.devRef .tc main_v15) = shapeCast S1x256 a4 shapeCasts_S256_S1x256 := by
  show StableHlo.after hostOps0 (W0 m ρ c) (Proc.devRef .tc main_v15) = _
  after_results
  try rfl

/-! ### At the first call's exit -/

/-- The first call leaves the reference's first hidden array in its output buffer. -/
theorem w2_v16 : W2 m ρ c (Proc.devRef .tc main_v16) = val_main_v19 (F := Ideal) a0 a1 a3 a4 := by
  refine (W2_arr m ρ c 4).trans ((One.arrAt_out (V1 m ρ) c).trans ?_)
  show One.out (W1 m ρ c (Proc.devRef .tc main_arg0)) (W1 m ρ c (Proc.devRef .tc main_v13)) (W1 m ρ c (Proc.devRef .tc main_v14))
    (W1 m ρ c (Proc.devRef .tc main_v15)) = _
  rw [w1_arg m ρ c main_arg0 (by simp), w1_v13, w1_v14, w1_v15]
  exact one_eq _ _ _ _

/-- A buffer the first call does not touch holds at its exit what it held at its entry. -/
theorem w2_rest (b : Ref sig .tc) (hb : ∀ w, Pipeline.arrRef spec0 w ≠ b) :
    W2 m ρ c (Proc.devRef .tc b) = W1 m ρ c (Proc.devRef .tc b) := W2_of_ne m ρ c b hb

/-! ### At the second call's entry -/

theorem w3_v16 : W3 m ρ c (Proc.devRef .tc main_v16) = val_main_v19 (F := Ideal) a0 a1 a3 a4 := by
  show StableHlo.after hostOps1 (W2 m ρ c) (Proc.devRef .tc main_v16) = _
  after_results
  exact w2_v16 m ρ c

/-- The neighbour sums of the first hidden array: the same gather and scatter-add again. -/
theorem w3_v26 : W3 m ρ c (Proc.devRef .tc main_v26) = val_main_v29 (F := Ideal) a0 a1 a3 a4 := by
  show StableHlo.after hostOps1 (W2 m ρ c) (Proc.devRef .tc main_v26) = _
  after_results
  rw [w2_v16, w2_rest m ρ c main_v1 (by decide), w2_rest m ρ c main_v3 (by decide), w1_v1, w1_v3]
  rfl

theorem w3_v27 : W3 m ρ c (Proc.devRef .tc main_v27) = truncf (F := Ideal) .bf16 (a5 : FVec Ideal S256x256 .f32) bitsLt_bf16_f32 := by
  show StableHlo.after hostOps1 (W2 m ρ c) (Proc.devRef .tc main_v27) = _
  after_results
  rw [w2_rest m ρ c main_arg5 (by decide), w1_arg m ρ c main_arg5 (by simp)]
  try rfl

theorem w3_v28 : W3 m ρ c (Proc.devRef .tc main_v28) = shapeCast S1x256 a6 shapeCasts_S256_S1x256 := by
  show StableHlo.after hostOps1 (W2 m ρ c) (Proc.devRef .tc main_v28) = _
  after_results
  rw [w2_rest m ρ c main_arg6 (by decide), w1_arg m ρ c main_arg6 (by simp)]
  try rfl

/-- An argument is still at its launch contents at the second call's entry. -/
theorem w3_arg (b : Ref sig .tc) (hb : b = main_arg2 ∨ b = main_arg7 ∨ b = main_arg8 ∨ b = main_arg9 ∨ b = main_arg10) :
    W3 m ρ c (Proc.devRef .tc b) = m ((c.tc : Thread nD τ).loc b) := by
  rcases hb with rfl | rfl | rfl | rfl | rfl <;>
  · show StableHlo.after hostOps1 (W2 m ρ c) (Proc.devRef .tc _) = _
    after_results
    rw [w2_rest m ρ c _ (by decide), w1_arg m ρ c _ (by simp)]

/-! ### At the second call's exit -/

/-- The second call leaves the reference's second hidden array in its output buffer. -/
theorem w4_v29 : W4 m ρ c (Proc.devRef .tc main_v29) = val_main_v35 (F := Ideal) a0 a1 a3 a4 a5 a6 := by
  refine (W4_arr m ρ c 4).trans ((Two.arrAt_out (V3 m ρ) c).trans ?_)
  show Two.out (W3 m ρ c (Proc.devRef .tc main_v16)) (W3 m ρ c (Proc.devRef .tc main_v26)) (W3 m ρ c (Proc.devRef .tc main_v27))
    (W3 m ρ c (Proc.devRef .tc main_v28)) = _
  rw [w3_v16, w3_v26, w3_v27, w3_v28]
  exact two_eq _ _ _ _ _ _

theorem w4_arg (b : Ref sig .tc) (hb : b = main_arg2 ∨ b = main_arg7 ∨ b = main_arg8 ∨ b = main_arg9 ∨ b = main_arg10) :
    W4 m ρ c (Proc.devRef .tc b) = m ((c.tc : Thread nD τ).loc b) := by
  rcases hb with rfl | rfl | rfl | rfl | rfl <;>
  · rw [W4_of_ne m ρ c _ (by decide)]
    exact w3_arg m ρ c _ (by simp)

/-! ### At the return -/

set_option maxHeartbeats 4000000 in
/-- The buffer the program returns holds the reference's result term of the same arguments: pooling and the head
    are the reference's own operations, applied to the reference's second hidden array. -/
theorem w7_v50 : W7 m ρ c (Proc.devRef .tc main_v50) = val_main_v56 (F := Ideal) a0 a1 a2 a3 a4 a5 a6 a7 a8 a9 a10 := by
  show StableHlo.after hostOps2_2 (StableHlo.after hostOps2_1 (StableHlo.after hostOps2 (W4 m ρ c))) (Proc.devRef .tc main_v50) = _
  after_results_simp
  rw [w4_v29, w4_arg m ρ c main_arg2 (by simp), w4_arg m ρ c main_arg7 (by simp), w4_arg m ρ c main_arg8 (by simp),
    w4_arg m ρ c main_arg9 (by simp), w4_arg m ρ c main_arg10 (by simp)]
  rfl

end Cert.Gin.Term

end
-- ==== Proof.lean ====
/-
  The kernel — a two-layer graph network whose two dense layers run as pallas_calls over blocks of 2000 nodes, with the
  neighbour aggregation, the mean pooling over graphs and the projection head left to the host — computes, on the
  extended reals, the same [512, 128] array as its plain jax reference.

  The only place the two programs differ is a layer: the kernel computes `max ((h + agg)·W + b, 0)` block by block on
  the matrix unit after narrowing `h + agg` and `W` to half width, the reference with one `dot_general` on the whole
  arrays. Narrowing is the identity on the extended reals and a product into a zero accumulator is the plain sum
  over the contracted axis, so every entry of a block is the reference's entry (Layer.lean); the blocks tile the
  output array (LayerOne.lean, LayerTwo.lean); and around the two calls both programs apply the same host operations
  to equal arrays (KernelTerm.lean). So the buffer the kernel program returns holds the reference's result term of
  the same arguments, and from memories that agree on the arguments the two results are equal. No step uses a law
  that fails at an infinity, so the inputs' finiteness is never opened.

  The three frames are the generated ones (the reference's is its generated run with the result dropped), and the
  ideal pass rewrote nothing, so the kernel's idealization is its own text read on the extended reals.
-/
import proofs.«136843_j79663053406797_1_alg».proof.Defs
import proofs.«136843_j79663053406797_1_alg».proof.Proof.Gen.Kernel
import proofs.«136843_j79663053406797_1_alg».proof.Proof.Gen.Kernel.Skeleton
import proofs.«136843_j79663053406797_1_alg».proof.Proof.Gen.Kernel.Launch
import proofs.«136843_j79663053406797_1_alg».proof.Proof.Gen.Kernel.Points
import proofs.«136843_j79663053406797_1_alg».proof.Proof.Gen.Kernel.Frame
import proofs.«136843_j79663053406797_1_alg».proof.Proof.Gen.KernelIdeal
import proofs.«136843_j79663053406797_1_alg».proof.Proof.Gen.KernelIdeal.Skeleton
import proofs.«136843_j79663053406797_1_alg».proof.Proof.Gen.KernelIdeal.Launch
import proofs.«136843_j79663053406797_1_alg».proof.Proof.Gen.KernelIdeal.Points
import proofs.«136843_j79663053406797_1_alg».proof.Proof.Gen.KernelIdeal.Frame
import proofs.«136843_j79663053406797_1_alg».proof.Proof.Gen.ReferenceIdeal
import proofs.«136843_j79663053406797_1_alg».proof.Proof.Gen.ReferenceIdeal.Run
import proofs.«136843_j79663053406797_1_alg».proof.Proof.Gen.ReferenceIdeal.Read
import proofs.«136843_j79663053406797_1_alg».proof.Proof.Gen.Pre_finite_inputs
import proofs.«136843_j79663053406797_1_alg».proof.Proof.RunValue
import proofs.«136843_j79663053406797_1_alg».proof.Proof.KernelTerm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel program's run ends with its result buffer at the reference's result term of the kernel's arguments;
    the reference's run ends at the same term of its own arguments, which agree. -/
theorem algebraic : Cert.algebraic_KernelIdeal_ReferenceIdeal := by
  intro m ρ m' ρ' _ hagree
  refine ⟨fun c => Cert.KernelIdeal.Gen.W7 m ρ c (Proc.devRef .tc Cert.KernelIdeal.main_v50),
    Cert.KernelIdeal.GenValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine (Cert.ReferenceIdeal.Read.val_main_v56_eq m' c).trans ?_
  rw [h0, h1, h2, h3, h4, h5, h6, h7, h8, h9, h10]
  exact (Cert.Gin.Term.w7_v50 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
